-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x7 : Shape := ⟨2, ![64, 7]⟩
abbrev S7 : Shape := ⟨1, ![7]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x7 : S_.BroadcastsInDim S64x7 (![] : Fin 0 → Fin S64x7.rank)
  reducesTo_S64x7_S_d0_1 : S64x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg4 : FVec F S7 .f32) (main_v13 : IVec S_ 1) (main_v16 : IVec S64x7 1) : IVec S_ 1 :=
  let main_c_5 : IVec S_ 1 := constantI S_ 1 1#1
  let main_v17 : IVec S_ 1 := (fun x v => Host.reduce IntOp.andi x v reducesTo_S64x7_S_d0_1 h_S_) main_v16 main_c_5
  let main_v18 : IVec S_ 1 := andi main_v13 main_v17
  let main_v19 : FVec F S7 .f32 := Host.absf main_arg4
  let main_cst_6 : FVec F S_ .f32 := constant S_ .f32 0x7F800000#32
  let main_v20 : FVec F S7 .f32 := broadcastInDim S7 ![] bcast_S_S7 main_cst_6
  let main_v21 : IVec S7 1 := cmpf .olt main_v19 main_v20
  let main_c_7 : IVec S_ 1 := constantI S_ 1 1#1
  let main_v22 : IVec S_ 1 := (fun x v => Host.reduce IntOp.andi x v reducesTo_S7_S_d0 h_S_) main_v21 main_c_7
  let main_v23 : IVec S_ 1 := andi main_v18 main_v22
  main_v23

def fn {F : FTy → Type} [FloatOps F] (main_arg0 : FVec F S100000x128 .f32) (main_arg1 : FVec F S128x64 .f32) (main_arg2 : FVec F S64 .f32) (main_arg3 : FVec F S64x7 .f32) (main_arg4 : FVec F S7 .f32) (main_arg5 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x7 .f32 := Host.absf main_arg3
  let main_cst_4 : FVec F S_ .f32 := constant S_ .f32 0x7F800000#32
  let main_v15 : FVec F S64x7 .f32 := broadcastInDim S64x7 ![] bcast_S_S64x7 main_cst_4
  let main_v16 : IVec S64x7 1 := cmpf .olt main_v14 main_v15
  fn_part1 (F := F) main_arg4 main_v13 main_v16
-- ==== Kernel.lean ====
abbrev S100000x128 : Shape := ⟨2, ![100000, 128]⟩
abbrev S128x64 : Shape := ⟨2, ![128, 64]⟩
abbrev S64 : Shape := ⟨1, ![64]⟩
abbrev S64x7 : Shape := ⟨2, ![64, 7]⟩
abbrev S7 : Shape := ⟨1, ![7]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S100000x7 : Shape := ⟨2, ![100000, 7]⟩
abbrev S5000x7 : Shape := ⟨2, ![5000, 7]⟩
abbrev S1700000x7 : Shape := ⟨2, ![1700000, 7]⟩
abbrev S1x7 : Shape := ⟨2, ![1, 7]⟩

abbrev nBuf : Space → Nat
  | .hbm => 89
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x7, .f32⟩
  | .hbm, ⟨4, _⟩ => ⟨S7, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S100000x7, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x7, .f32⟩
  | .hbm, ⟨79, _⟩ => ⟨S1700000x1, .f32⟩
  | .hbm, ⟨80, _⟩ => ⟨S1700000x7, .f32⟩
  | .hbm, ⟨81, _⟩ => ⟨S1700000x7, .f32⟩
  | .hbm, ⟨82, _⟩ => ⟨S_, .f32⟩
  | .hbm, ⟨83, _⟩ => ⟨S100000x7, .f32⟩
  | .hbm, ⟨84, _⟩ => ⟨S1700000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S64x7, .f32⟩
  | .local _ .vmem, ⟨8, _⟩ => ⟨S5000x7, .f32⟩
  | .local _ .vmem, ⟨9, _⟩ => ⟨S5000x7, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x7 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x7 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S5000x64_S5000x64 : S5000x64.ShapeCasts S5000x64
  inb_S64x7_S64x7_0_0 : ∀ a, (![0, 0] : Fin 2 → Nat) a + S64x7.size a ≤ S64x7.size a
  h_S64x7 : 0 < S64x7.numel
  inb_S5000x7_S5000x7_0_0 : ∀ a, (![0, 0] : Fin 2 → Nat) a + S5000x7.size a ≤ S5000x7.size a
  h_S5000x7 : 0 < S5000x7.numel
  bcast_S1700000x1_S1700000x7_0_1 : S1700000x1.BroadcastsInDim S1700000x7 (![0, 1] : Fin 2 → Fin S1700000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x7_S5000x7_1_0_0_1_n_n_wf : DotDims.WF S5000x64 S64x7 S5000x7 [1] [0] [0] [1] [] []
  gather_S100000x7_S1700000x1_S1700000x7_1_0_n_n_0_1_17_wf : GatherDims.WF S100000x7 S1700000x1 S1700000x7 [1] [0] [] [0] [] 1 ![1, 7]
  scatter_S100000x7_S1700000x1_S1700000x7_1_0_0_1_wf : ScatterDims.WF S100000x7 S1700000x1 S1700000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x7.size a ≤ S64x7.size a
  hwx1_1 : ∀ i : grid1.Coords, EltTy.bits .f32 = 32 ∨ (Rect.block (s := S64x7) S64x7.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x7.size a ≤ S100000x7.size a
  hwx1_2 : ∀ i : grid1.Coords, EltTy.bits .f32 = 32 ∨ (Rect.block (s := S100000x7) S5000x7.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x7_S5000x7_1_0_0_1_n_n : DotDims S5000x64 S64x7 S5000x7 where
  lhsContracting := [1]
  rhsContracting := [0]
  lhsNonContracting := [0]
  rhsNonContracting := [1]
  lhsBatch := []
  rhsBatch := []
  wf := dot_S5000x64_S64x7_S5000x7_1_0_0_1_n_n_wf
def gather_S100000x7_S1700000x1_S1700000x7_1_0_n_n_0_1_17 : GatherDims S100000x7 S1700000x1 S1700000x7 where
  offsetDims := [1]
  collapsedSliceDims := [0]
  operandBatchingDims := []
  startIndicesBatchingDims := []
  startIndexMap := [0]
  indexVectorDim := 1
  sliceSizes := ![1, 7]
  wf := gather_S100000x7_S1700000x1_S1700000x7_1_0_n_n_0_1_17_wf
def scatter_S100000x7_S1700000x1_S1700000x7_1_0_0_1 : ScatterDims S100000x7 S1700000x1 S1700000x7 where
  updateWindowDims := [1]
  insertedWindowDims := [0]
  scatterDimsToOperandDims := [0]
  indexVectorDim := 1
  wf := scatter_S100000x7_S1700000x1_S1700000x7_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x7.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x7.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x7 : Shape := ⟨2, ![64, 7]⟩
abbrev S7 : Shape := ⟨1, ![7]⟩
abbrev S2x1600000 : Shape := ⟨2, ![2, 1600000]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x7 : Shape := ⟨2, ![100000, 7]⟩
abbrev S1700000x7 : Shape := ⟨2, ![1700000, 7]⟩
abbrev S1x7 : Shape := ⟨2, ![1, 7]⟩

abbrev nBuf : Space → Nat
  | .hbm => 89
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64x7, .f32⟩
  | .hbm, ⟨4, _⟩ => ⟨S7, .f32⟩
  | .hbm, ⟨5, _⟩ => ⟨S2x1600000, .i32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S100000x7, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x7, .f32⟩
  | .hbm, ⟨79, _⟩ => ⟨S1700000x1, .f32⟩
  | .hbm, ⟨80, _⟩ => ⟨S1700000x7, .f32⟩
  | .hbm, ⟨81, _⟩ => ⟨S1700000x7, .f32⟩
  | .hbm, ⟨82, _⟩ => ⟨S_, .f32⟩
  | .hbm, ⟨83, _⟩ => ⟨S100000x7, .f32⟩
  | .hbm, ⟨84, _⟩ => ⟨S1700000x1, .i32⟩
  | .hbm, ⟨85, _⟩ => ⟨S100000x7, .f32⟩
  | .hbm, ⟨86, _⟩ => ⟨S1x7, .f32⟩
  | .hbm, ⟨87, _⟩ => ⟨S100000x7, .f32⟩
  | .hbm, ⟨88, _⟩ => ⟨S100000x7, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_c_10 : Ref sig .tc := ⟨.hbm, 70, rfl⟩
abbrev main_v50 : Ref sig .tc := ⟨.hbm, 71, rfl⟩
abbrev main_v51 : Ref sig .tc := ⟨.hbm, 72, rfl⟩
abbrev main_c_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_12 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x7_0_1 : S1700000x1.BroadcastsInDim S1700000x7 (![0, 1] : Fin 2 → Fin S1700000x7.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x7_S100000x7_1_0_0_1_n_n_wf : DotDims.WF S100000x64 S64x7 S100000x7 [1] [0] [0] [1] [] []
  gather_S100000x7_S1700000x1_S1700000x7_1_0_n_n_0_1_17_wf : GatherDims.WF S100000x7 S1700000x1 S1700000x7 [1] [0] [] [0] [] 1 ![1, 7]
  scatter_S100000x7_S1700000x1_S1700000x7_1_0_0_1_wf : ScatterDims.WF S100000x7 S1700000x1 S1700000x7 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x7_S100000x7_1_0_0_1_n_n : DotDims S100000x64 S64x7 S100000x7 where
  lhsContracting := [1]
  rhsContracting := [0]
  lhsNonContracting := [0]
  rhsNonContracting := [1]
  lhsBatch := []
  rhsBatch := []
  wf := dot_S100000x64_S64x7_S100000x7_1_0_0_1_n_n_wf
def gather_S100000x7_S1700000x1_S1700000x7_1_0_n_n_0_1_17 : GatherDims S100000x7 S1700000x1 S1700000x7 where
  offsetDims := [1]
  collapsedSliceDims := [0]
  operandBatchingDims := []
  startIndicesBatchingDims := []
  startIndexMap := [0]
  indexVectorDim := 1
  sliceSizes := ![1, 7]
  wf := gather_S100000x7_S1700000x1_S1700000x7_1_0_n_n_0_1_17_wf
def scatter_S100000x7_S1700000x1_S1700000x7_1_0_0_1 : ScatterDims S100000x7 S1700000x1 S1700000x7 where
  updateWindowDims := [1]
  insertedWindowDims := [0]
  scatterDimsToOperandDims := [0]
  indexVectorDim := 1
  wf := scatter_S100000x7_S1700000x1_S1700000x7_1_0_0_1_wf

class Facts : Prop extends Facts₀ where

variable [Facts]
-- ==== Proof.BlockValue.lean ====
/-
  The two kernel bodies' stored values, read at an index over the extended reals.

  Each body loads a row block `a` and the whole weight matrix `w`, narrows both to bf16 (the identity on the extended
  reals), and multiplies them into a zero accumulator. So the stored block's entry at row `r`, column `q` is the plain
  sum over the contraction axis `∑ k, a[r, k] · w[k, q]`: the zero accumulator drops out (`0 + s = s` holds on the
  extended reals without any finiteness), and the one-axis contraction index is its coordinate.
  The second body first re-lays its block to the same shape, which changes nothing.
-/
import proofs.«142271_j66297115181468_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.TcCoe

/-! ## First body: a [5000,128] row block times the [128,64] weights -/

/-- Row `r = j 0` of the row block, at contraction position `k`. -/
abbrev rowAt0 (j : S5000x64.Idx) (k : Fin 128) : S5000x128.Idx := fun a => match a with
  | ⟨0, _⟩ => ⟨(j 0).val, (j 0).isLt⟩
  | ⟨1, _⟩ => ⟨k.val, k.isLt⟩
/-- Column `q = j 1` of the weights, at contraction position `k`. -/
abbrev colAt0 (j : S5000x64.Idx) (k : Fin 128) : S128x64.Idx := fun a => match a with
  | ⟨0, _⟩ => ⟨k.val, k.isLt⟩
  | ⟨1, _⟩ => ⟨(j 1).val, (j 1).isLt⟩

theorem lhs0_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs0_1 (i : S5000x64.Idx) (q : dot_S5000x128_S128x64_S5000x64_1_0_0_1_n_n.contr.Idx) :
    (dot_S5000x128_S128x64_S5000x64_1_0_0_1_n_n.lhsIdx i q 1).val = (q ⟨0, by decide⟩).val :=
  dot_S5000x128_S128x64_S5000x64_1_0_0_1_n_n.lhsIdx_val_of_single rfl i q
theorem rhs0_0 (i : S5000x64.Idx) (q : dot_S5000x128_S128x64_S5000x64_1_0_0_1_n_n.contr.Idx) :
    (dot_S5000x128_S128x64_S5000x64_1_0_0_1_n_n.rhsIdx i q 0).val = (q ⟨0, by decide⟩).val :=
  dot_S5000x128_S128x64_S5000x64_1_0_0_1_n_n.rhsIdx_val_of_single rfl i q
theorem rhs0_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The first body's stored value at `(r, q)` is `∑ k, a[r, k] · w[k, q]`. -/
theorem pay0_apply (a : Vec Ideal S5000x128 .f32) (w : Vec Ideal S128x64 .f32) (j : S5000x64.Idx) :
    k0_pay1 (F := Ideal) a w j = ∑ k : Fin 128, a (rowAt0 j k) * w (colAt0 j k) := by
  unfold k0_pay1
  show FloatOps.matmul (F := Ideal) dot_S5000x128_S128x64_S5000x64_1_0_0_1_n_n none _ _ _ j = _
  rw [Ideal.matmul_constant_zero_apply, ← Equiv.sum_comp (ValueIdx.contrEquiv1 dot_S5000x128_S128x64_S5000x64_1_0_0_1_n_n 128 rfl rfl).symm]
  refine Finset.sum_congr rfl fun k _ => ?_
  have hk := ValueIdx.contrEquiv1_symm_val dot_S5000x128_S128x64_S5000x64_1_0_0_1_n_n 128 rfl rfl k
  have el : dot_S5000x128_S128x64_S5000x64_1_0_0_1_n_n.lhsIdx j ((ValueIdx.contrEquiv1 dot_S5000x128_S128x64_S5000x64_1_0_0_1_n_n 128 rfl rfl).symm k) = rowAt0 j k := funext fun x => Fin.ext (by
    match x with
    | ⟨0, _⟩ => exact lhs0_0 _ _
    | ⟨1, _⟩ => exact (lhs0_1 _ _).trans hk)
  have er : dot_S5000x128_S128x64_S5000x64_1_0_0_1_n_n.rhsIdx j ((ValueIdx.contrEquiv1 dot_S5000x128_S128x64_S5000x64_1_0_0_1_n_n 128 rfl rfl).symm k) = colAt0 j k := funext fun x => Fin.ext (by
    match x with
    | ⟨0, _⟩ => exact (rhs0_0 _ _).trans hk
    | ⟨1, _⟩ => exact rhs0_1 _ _)
  rw [el, er]
  rfl

/-! ## Second body: a [5000,64] row block times the [64,7] weights -/

abbrev rowAt1 (j : S5000x7.Idx) (k : Fin 64) : S5000x64.Idx := fun a => match a with
  | ⟨0, _⟩ => ⟨(j 0).val, (j 0).isLt⟩
  | ⟨1, _⟩ => ⟨k.val, k.isLt⟩
abbrev colAt1 (j : S5000x7.Idx) (k : Fin 64) : S64x7.Idx := fun a => match a with
  | ⟨0, _⟩ => ⟨k.val, k.isLt⟩
  | ⟨1, _⟩ => ⟨(j 1).val, (j 1).isLt⟩

theorem lhs1_0 (i : S5000x7.Idx) (q : dot_S5000x64_S64x7_S5000x7_1_0_0_1_n_n.contr.Idx) :
    (dot_S5000x64_S64x7_S5000x7_1_0_0_1_n_n.lhsIdx i q 0).val = (i 0).val := by
  unfold DotDims.lhsIdx
  rw [dif_neg (show ¬(0 : Fin S5000x64.rank) ∈ dot_S5000x64_S64x7_S5000x7_1_0_0_1_n_n.lhsBatch by decide), dif_pos (show (0 : Fin S5000x64.rank) ∈ dot_S5000x64_S64x7_S5000x7_1_0_0_1_n_n.lhsNonContracting by decide)]
  rfl
theorem lhs1_1 (i : S5000x7.Idx) (q : dot_S5000x64_S64x7_S5000x7_1_0_0_1_n_n.contr.Idx) :
    (dot_S5000x64_S64x7_S5000x7_1_0_0_1_n_n.lhsIdx i q 1).val = (q ⟨0, by decide⟩).val :=
  dot_S5000x64_S64x7_S5000x7_1_0_0_1_n_n.lhsIdx_val_of_single rfl i q
theorem rhs1_0 (i : S5000x7.Idx) (q : dot_S5000x64_S64x7_S5000x7_1_0_0_1_n_n.contr.Idx) :
    (dot_S5000x64_S64x7_S5000x7_1_0_0_1_n_n.rhsIdx i q 0).val = (q ⟨0, by decide⟩).val :=
  dot_S5000x64_S64x7_S5000x7_1_0_0_1_n_n.rhsIdx_val_of_single rfl i q
theorem rhs1_1 (i : S5000x7.Idx) (q : dot_S5000x64_S64x7_S5000x7_1_0_0_1_n_n.contr.Idx) :
    (dot_S5000x64_S64x7_S5000x7_1_0_0_1_n_n.rhsIdx i q 1).val = (i 1).val := by
  unfold DotDims.rhsIdx
  rw [dif_neg (show ¬(1 : Fin S64x7.rank) ∈ dot_S5000x64_S64x7_S5000x7_1_0_0_1_n_n.rhsBatch by decide), dif_pos (show (1 : Fin S64x7.rank) ∈ dot_S5000x64_S64x7_S5000x7_1_0_0_1_n_n.rhsNonContracting by decide)]
  rfl

/-- The second body's stored value at `(r, q)` is `∑ k, a[r, k] · w[k, q]`: the re-laying to the same shape and the
    narrowing to bf16 are both the identity. -/
theorem pay1_apply (a : Vec Ideal S5000x64 .f32) (w : Vec Ideal S64x7 .f32) (j : S5000x7.Idx) :
    k1_pay1 (F := Ideal) a w j = ∑ k : Fin 64, a (rowAt1 j k) * w (colAt1 j k) := by
  unfold k1_pay1
  show FloatOps.matmul (F := Ideal) dot_S5000x64_S64x7_S5000x7_1_0_0_1_n_n none _ _ _ j = _
  rw [Ideal.matmul_constant_zero_apply, ← Equiv.sum_comp (ValueIdx.contrEquiv1 dot_S5000x64_S64x7_S5000x7_1_0_0_1_n_n 64 rfl rfl).symm]
  refine Finset.sum_congr rfl fun k _ => ?_
  have hk := ValueIdx.contrEquiv1_symm_val dot_S5000x64_S64x7_S5000x7_1_0_0_1_n_n 64 rfl rfl k
  have el : dot_S5000x64_S64x7_S5000x7_1_0_0_1_n_n.lhsIdx j ((ValueIdx.contrEquiv1 dot_S5000x64_S64x7_S5000x7_1_0_0_1_n_n 64 rfl rfl).symm k) = rowAt1 j k := funext fun x => Fin.ext (by
    match x with
    | ⟨0, _⟩ => exact lhs1_0 _ _
    | ⟨1, _⟩ => exact (lhs1_1 _ _).trans hk)
  have er : dot_S5000x64_S64x7_S5000x7_1_0_0_1_n_n.rhsIdx j ((ValueIdx.contrEquiv1 dot_S5000x64_S64x7_S5000x7_1_0_0_1_n_n 64 rfl rfl).symm k) = colAt1 j k := funext fun x => Fin.ext (by
    match x with
    | ⟨0, _⟩ => exact (rhs1_0 _ _).trans hk
    | ⟨1, _⟩ => exact rhs1_1 _ _)
  rw [el, er]
  show (shapeCast S5000x64 a shapeCasts_S5000x64_S5000x64) (rowAt1 j k) * w (colAt1 j k) = _
  rw [shapeCast_self]

end Cert.KernelIdeal.BlockValue

end
-- ==== Proof.Region0.lean ====
/-
  The first region's output array after its 20 grid points, over the extended reals.

  Point `t` loads rows `5000 t … 5000 t + 4999` of the left operand and the whole [128,64] weight matrix and writes back
  their product as rows `5000 t …` of the output; the 20 row blocks tile the [100000,64] output, so the array ends as the
  matrix product of the arrays the region was entered with, whatever those are.
-/
import proofs.«142271_j66297115181468_1_alg».proof.Proof.Gen.KernelIdeal.Frame
import proofs.«142271_j66297115181468_1_alg».proof.Proof.BlockValue
import Idealize.ShloMosaic.Lib.Pipeline.Value

set_option maxRecDepth 16384

noncomputable section

namespace Cert.KernelIdeal.Region0

open Cert.KernelIdeal Cert.KernelIdeal.Gen Cert.KernelIdeal.BlockValue Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The left operand's array as the region finds it. -/
abbrev lhsArr (c : Dev nD) : Vec Ideal S100000x128 .f32 := V c main_arg0
/-- The weight matrix as the region finds it. -/
abbrev rhsArr (c : Dev nD) : Vec Ideal S128x64 .f32 := V c main_arg1

/-- Row `i 0` of the left operand, at contraction position `k`. -/
abbrev rowOf (i : S100000x64.Idx) (k : Fin 128) : S100000x128.Idx := fun a => match a with
  | ⟨0, _⟩ => ⟨(i 0).val, (i 0).isLt⟩
  | ⟨1, _⟩ => ⟨k.val, k.isLt⟩
/-- Column `i 1` of the weights, at contraction position `k`. -/
abbrev colOf (i : S100000x64.Idx) (k : Fin 128) : S128x64.Idx := fun a => match a with
  | ⟨0, _⟩ => ⟨k.val, k.isLt⟩
  | ⟨1, _⟩ => ⟨(i 1).val, (i 1).isLt⟩

/-- The matrix product of the whole arrays, entry by entry: `(x · w)[r, q] = ∑ k, x[r, k] · w[k, q]`. -/
def prod (x : S100000x128.Idx → EReal) (w : S128x64.Idx → EReal) : S100000x64.Idx → EReal :=
  fun i => ∑ k : Fin 128, x (rowOf i k) * w (colOf i k)

/-- The index maps over the 20 grid points: the left operand's row block moves with the output's, its column block
    and both block indices of the weights stay at 0, and the output's column block is 0. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 20 row blocks is some grid point's. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- What grid point `t` writes back is block `t` of the product of the arrays the region is entered with: the body
    multiplies rows `5000 t … 5000 t + 4999` of the left operand by the whole weight matrix. -/
theorem flushed_eq (c : Dev nD) (t : Fin cfg0.N) :
    (dat0 V c).flushed 2 t = ((cfg0.win 2).blk t).view.read (Elt Ideal) (prod (lhsArr V c) (rhsArr V c)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e0, e1, e2, e3, e4⟩ := idx_facts t
  funext j
  show k0_pay1 (F := Ideal) (iblk0 V c 0 t) (iblk0 V c 1 t) j = prod (lhsArr V c) (rhsArr V c) (((cfg0.win 2).blk t).view.emb j)
  refine (pay0_apply (iblk0 V c 0 t) (iblk0 V c 1 t) j).trans ?_
  unfold prod
  refine Finset.sum_congr rfl fun k _ => ?_
  show lhsArr V c (((cfg0.win 0).blk t).view.emb (rowAt0 j k)) * rhsArr V c (((cfg0.win 1).blk t).view.emb (colAt0 j k))
    = lhsArr V c (rowOf (((cfg0.win 2).blk t).view.emb j) k) * rhsArr V c (colOf (((cfg0.win 2).blk t).view.emb j) k)
  have h0 : ((cfg0.win 0).blk t).view.emb (rowAt0 j k) = rowOf (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have h1 : ((cfg0.win 1).blk t).view.emb (colAt0 j k) = colOf (((cfg0.win 2).blk t).view.emb j) k := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  rw [h0, h1]

/-- An index of the output array is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- The 20 row blocks tile the output array: row `r` lies in block `r / 5000`. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region its output array is the matrix product of the two arrays it was entered with. -/
theorem final (c : Dev nD) : (dat0 V c).arrAt 2 cfg0.N = prod (lhsArr V c) (rhsArr V c) :=
  (dat0 V c).arrAt_eq_of_cover 2 _ (fun t _ => flushed_eq V c t) cover

end Cert.KernelIdeal.Region0

end
-- ==== Proof.Fold.lean ====
/-
  The idealized kernel program's result array as a function of its argument arrays, read boundary by boundary.

  The program is five stretches of host operations around two matrix-product regions. The host stretches are the very
  operations of the reference program (index arithmetic on the edge list, the degree normalisation, the gathers and the
  scatter-adds), so each stretch is carried as ONE function of the buffers it reads and is never opened: what has to be
  shown is only that the values going into a stretch are the reference's stage values. The two regions are where the
  programs differ in text: a region leaves the matrix product of the arrays it is entered with, block by block, and the
  reference's stage there is the host's product, the same sum `∑ k, x[r, k] · w[k, q]` over the extended reals.
-/
import proofs.«142271_j66297115181468_1_alg».proof.Proof.Gen.KernelIdeal.Frame
import proofs.«142271_j66297115181468_1_alg».proof.Proof.Region0
import proofs.«142271_j66297115181468_1_alg».proof.Proof.Region1
import proofs.«142271_j66297115181468_1_alg».proof.Proof.RefReadGen

set_option maxRecDepth 16384

noncomputable section

namespace Cert.KernelIdeal.Fold

open Cert.KernelIdeal Cert.KernelIdeal.Gen Idealize.ShloMosaic Idealize.ShloMosaic.TcCoe Idealize.SL.Sem Idealize.ShloMosaic.StableHlo
open Cert.ReferenceIdeal.ReadP (val_main_v3 val_main_v6 val_main_v31 val_main_v32 val_main_v48 val_main_v49 val_main_v65)

/-! ## The host stretches, each as one function of the buffers it reads (any float values) -/

section Stretches

variable {F : FTy → Type} [FloatOps F]
variable (U : Valuation τ sig (Elt F))

/-- The stretches before the first region leave the source indices (with the self-loops appended) … -/
theorem pre_v3 : StableHlo.after hostOps0_2 (StableHlo.after hostOps0_1 (StableHlo.after hostOps0 U)) (Proc.devRef .tc main_v3)
    = val_main_v3 (F := F) (U (Proc.devRef .tc main_arg5)) := by
  dsimp only [hostOps0, hostOps0_1, hostOps0_2]
  after_results_simp
  rfl
/-- … the destination indices … -/
theorem pre_v6 : StableHlo.after hostOps0_2 (StableHlo.after hostOps0_1 (StableHlo.after hostOps0 U)) (Proc.devRef .tc main_v6)
    = val_main_v6 (F := F) (U (Proc.devRef .tc main_arg5)) := by
  dsimp only [hostOps0, hostOps0_1, hostOps0_2]
  after_results_simp
  rfl
/-- … and the per-edge normalisation `dinv[src] · dinv[dst]`, all functions of the edge list alone. -/
theorem pre_v31 : StableHlo.after hostOps0_2 (StableHlo.after hostOps0_1 (StableHlo.after hostOps0 U)) (Proc.devRef .tc main_v31)
    = val_main_v31 (F := F) (U (Proc.devRef .tc main_arg5)) := by
  dsimp only [hostOps0, hostOps0_1, hostOps0_2]
  after_results_simp
  rfl
/-- They do not write `main_arg0`. -/
theorem pre_main_arg0 : StableHlo.after hostOps0_2 (StableHlo.after hostOps0_1 (StableHlo.after hostOps0 U)) (Proc.devRef .tc main_arg0) = U (Proc.devRef .tc main_arg0) := by
  dsimp only [hostOps0, hostOps0_1, hostOps0_2]
  after_results_simp
/-- They do not write `main_arg1`. -/
theorem pre_main_arg1 : StableHlo.after hostOps0_2 (StableHlo.after hostOps0_1 (StableHlo.after hostOps0 U)) (Proc.devRef .tc main_arg1) = U (Proc.devRef .tc main_arg1) := by
  dsimp only [hostOps0, hostOps0_1, hostOps0_2]
  after_results_simp
/-- They do not write `main_arg2`. -/
theorem pre_main_arg2 : StableHlo.after hostOps0_2 (StableHlo.after hostOps0_1 (StableHlo.after hostOps0 U)) (Proc.devRef .tc main_arg2) = U (Proc.devRef .tc main_arg2) := by
  dsimp only [hostOps0, hostOps0_1, hostOps0_2]
  after_results_simp
/-- They do not write `main_arg3`. -/
theorem pre_main_arg3 : StableHlo.after hostOps0_2 (StableHlo.after hostOps0_1 (StableHlo.after hostOps0 U)) (Proc.devRef .tc main_arg3) = U (Proc.devRef .tc main_arg3) := by
  dsimp only [hostOps0, hostOps0_1, hostOps0_2]
  after_results_simp
/-- They do not write `main_arg4`. -/
theorem pre_main_arg4 : StableHlo.after hostOps0_2 (StableHlo.after hostOps0_1 (StableHlo.after hostOps0 U)) (Proc.devRef .tc main_arg4) = U (Proc.devRef .tc main_arg4) := by
  dsimp only [hostOps0, hostOps0_1, hostOps0_2]
  after_results_simp

/-- The stretch between the regions: from the first product, gather along the sources, scale by the normalisation,
    scatter-add onto the destinations, add the bias — the reference's hidden-layer stage when its inputs are the
    reference's stages. -/
theorem mid_v48 (x0 x1 x2 x5)
    (h32 : U (Proc.devRef .tc main_v32) = val_main_v32 (F := F) x0 x1)
    (h3 : U (Proc.devRef .tc main_v3) = val_main_v3 (F := F) x5)
    (h6 : U (Proc.devRef .tc main_v6) = val_main_v6 (F := F) x5)
    (h31 : U (Proc.devRef .tc main_v31) = val_main_v31 (F := F) x5)
    (h2 : U (Proc.devRef .tc main_arg2) = x2) :
    StableHlo.after hostOps1 U (Proc.devRef .tc main_v48) = val_main_v48 (F := F) x0 x1 x2 x5 := by
  dsimp only [hostOps1]
  after_results_simp
  rw [h32, h3, h6, h31, h2]
  rfl
/-- It does not write `main_v3`. -/
theorem mid_main_v3 : StableHlo.after hostOps1 U (Proc.devRef .tc main_v3) = U (Proc.devRef .tc main_v3) := by
  dsimp only [hostOps1]
  after_results_simp
/-- It does not write `main_v6`. -/
theorem mid_main_v6 : StableHlo.after hostOps1 U (Proc.devRef .tc main_v6) = U (Proc.devRef .tc main_v6) := by
  dsimp only [hostOps1]
  after_results_simp
/-- It does not write `main_v31`. -/
theorem mid_main_v31 : StableHlo.after hostOps1 U (Proc.devRef .tc main_v31) = U (Proc.devRef .tc main_v31) := by
  dsimp only [hostOps1]
  after_results_simp
/-- It does not write `main_arg3`. -/
theorem mid_main_arg3 : StableHlo.after hostOps1 U (Proc.devRef .tc main_arg3) = U (Proc.devRef .tc main_arg3) := by
  dsimp only [hostOps1]
  after_results_simp
/-- It does not write `main_arg4`. -/
theorem mid_main_arg4 : StableHlo.after hostOps1 U (Proc.devRef .tc main_arg4) = U (Proc.devRef .tc main_arg4) := by
  dsimp only [hostOps1]
  after_results_simp

/-- The stretch after the second region: the same aggregation on the second product, and the second bias — the
    reference's result stage when its inputs are the reference's stages. -/
theorem tail_v65 (x0 x1 x2 x3 x4 x5)
    (h49 : U (Proc.devRef .tc main_v49) = val_main_v49 (F := F) x0 x1 x2 x3 x5)
    (h3 : U (Proc.devRef .tc main_v3) = val_main_v3 (F := F) x5)
    (h6 : U (Proc.devRef .tc main_v6) = val_main_v6 (F := F) x5)
    (h31 : U (Proc.devRef .tc main_v31) = val_main_v31 (F := F) x5)
    (h4 : U (Proc.devRef .tc main_arg4) = x4) :
    StableHlo.after hostOps2 U (Proc.devRef .tc main_v65) = val_main_v65 (F := F) x0 x1 x2 x3 x4 x5 := by
  dsimp only [hostOps2]
  after_results_simp
  rw [h49, h3, h6, h31, h4]
  rfl

end Stretches

/-! ## The boundaries of the run, over the extended reals -/

section Boundaries

variable (m : (ℓ : Loc nD τ sig) → Buf (Elt Ideal) ℓ) (ρ : Dev nD → PrngReg) (c : Dev nD)

/-! ### Entering the first region -/

theorem W3_v3 : W3 m ρ c (Proc.devRef .tc main_v3) = val_main_v3 (F := Ideal) (m ((c : Thread nD τ).loc main_arg5)) := pre_v3 (W0 m ρ c)
theorem W3_v6 : W3 m ρ c (Proc.devRef .tc main_v6) = val_main_v6 (F := Ideal) (m ((c : Thread nD τ).loc main_arg5)) := pre_v6 (W0 m ρ c)
theorem W3_v31 : W3 m ρ c (Proc.devRef .tc main_v31) = val_main_v31 (F := Ideal) (m ((c : Thread nD τ).loc main_arg5)) := pre_v31 (W0 m ρ c)
theorem W3_main_arg0 : W3 m ρ c (Proc.devRef .tc main_arg0) = m ((c : Thread nD τ).loc main_arg0) := pre_main_arg0 (W0 m ρ c)
theorem W3_main_arg1 : W3 m ρ c (Proc.devRef .tc main_arg1) = m ((c : Thread nD τ).loc main_arg1) := pre_main_arg1 (W0 m ρ c)
theorem W3_main_arg2 : W3 m ρ c (Proc.devRef .tc main_arg2) = m ((c : Thread nD τ).loc main_arg2) := pre_main_arg2 (W0 m ρ c)
theorem W3_main_arg3 : W3 m ρ c (Proc.devRef .tc main_arg3) = m ((c : Thread nD τ).loc main_arg3) := pre_main_arg3 (W0 m ρ c)
theorem W3_main_arg4 : W3 m ρ c (Proc.devRef .tc main_arg4) = m ((c : Thread nD τ).loc main_arg4) := pre_main_arg4 (W0 m ρ c)

/-! ### Leaving the first region: its output is the host's product of the arguments -/

theorem W4_v32 : W4 m ρ c (Proc.devRef .tc main_v32)
    = val_main_v32 (F := Ideal) (m ((c : Thread nD τ).loc main_arg0)) (m ((c : Thread nD τ).loc main_arg1)) := by
  refine (W4_arr m ρ c 2).trans ((Region0.final (V3 m ρ) c).trans ?_)
  funext i
  refine Eq.trans ?_ (Cert.ReferenceIdeal.ReadP.val_main_v32_apply _ _ i).symm
  show ∑ k : Fin 128, Region0.lhsArr (V3 m ρ) c (Region0.rowOf i k) * Region0.rhsArr (V3 m ρ) c (Region0.colOf i k) = _
  rw [show Region0.lhsArr (V3 m ρ) c = m ((c : Thread nD τ).loc main_arg0) from W3_main_arg0 m ρ c,
    show Region0.rhsArr (V3 m ρ) c = m ((c : Thread nD τ).loc main_arg1) from W3_main_arg1 m ρ c]
  rfl
theorem W4_main_v3 : W4 m ρ c (Proc.devRef .tc main_v3) = W3 m ρ c (Proc.devRef .tc main_v3) := W4_of_ne m ρ c main_v3 (by decide)
theorem W4_main_v6 : W4 m ρ c (Proc.devRef .tc main_v6) = W3 m ρ c (Proc.devRef .tc main_v6) := W4_of_ne m ρ c main_v6 (by decide)
theorem W4_main_v31 : W4 m ρ c (Proc.devRef .tc main_v31) = W3 m ρ c (Proc.devRef .tc main_v31) := W4_of_ne m ρ c main_v31 (by decide)
theorem W4_main_arg2 : W4 m ρ c (Proc.devRef .tc main_arg2) = W3 m ρ c (Proc.devRef .tc main_arg2) := W4_of_ne m ρ c main_arg2 (by decide)
theorem W4_main_arg3 : W4 m ρ c (Proc.devRef .tc main_arg3) = W3 m ρ c (Proc.devRef .tc main_arg3) := W4_of_ne m ρ c main_arg3 (by decide)
theorem W4_main_arg4 : W4 m ρ c (Proc.devRef .tc main_arg4) = W3 m ρ c (Proc.devRef .tc main_arg4) := W4_of_ne m ρ c main_arg4 (by decide)

/-! ### Entering the second region: the hidden layer is the reference's -/

theorem W5_v48 : W5 m ρ c (Proc.devRef .tc main_v48)
    = val_main_v48 (F := Ideal) (m ((c : Thread nD τ).loc main_arg0)) (m ((c : Thread nD τ).loc main_arg1)) (m ((c : Thread nD τ).loc main_arg2)) (m ((c : Thread nD τ).loc main_arg5)) :=
  mid_v48 (W4 m ρ c) _ _ _ _ (W4_v32 m ρ c) ((W4_main_v3 m ρ c).trans (W3_v3 m ρ c)) ((W4_main_v6 m ρ c).trans (W3_v6 m ρ c))
    ((W4_main_v31 m ρ c).trans (W3_v31 m ρ c)) ((W4_main_arg2 m ρ c).trans (W3_main_arg2 m ρ c))
theorem W5_v3 : W5 m ρ c (Proc.devRef .tc main_v3) = val_main_v3 (F := Ideal) (m ((c : Thread nD τ).loc main_arg5)) :=
  (mid_main_v3 (W4 m ρ c)).trans ((W4_main_v3 m ρ c).trans (W3_v3 m ρ c))
theorem W5_v6 : W5 m ρ c (Proc.devRef .tc main_v6) = val_main_v6 (F := Ideal) (m ((c : Thread nD τ).loc main_arg5)) :=
  (mid_main_v6 (W4 m ρ c)).trans ((W4_main_v6 m ρ c).trans (W3_v6 m ρ c))
theorem W5_v31 : W5 m ρ c (Proc.devRef .tc main_v31) = val_main_v31 (F := Ideal) (m ((c : Thread nD τ).loc main_arg5)) :=
  (mid_main_v31 (W4 m ρ c)).trans ((W4_main_v31 m ρ c).trans (W3_v31 m ρ c))
theorem W5_main_arg3 : W5 m ρ c (Proc.devRef .tc main_arg3) = m ((c : Thread nD τ).loc main_arg3) :=
  (mid_main_arg3 (W4 m ρ c)).trans ((W4_main_arg3 m ρ c).trans (W3_main_arg3 m ρ c))
theorem W5_main_arg4 : W5 m ρ c (Proc.devRef .tc main_arg4) = m ((c : Thread nD τ).loc main_arg4) :=
  (mid_main_arg4 (W4 m ρ c)).trans ((W4_main_arg4 m ρ c).trans (W3_main_arg4 m ρ c))

/-! ### Leaving the second region: its output is the host's product of the hidden layer and the second weights -/

theorem W6_v49 : W6 m ρ c (Proc.devRef .tc main_v49)
    = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg5)) := by
  refine (W6_arr m ρ c 2).trans ((Region1.final (V5 m ρ) c).trans ?_)
  funext i
  refine Eq.trans ?_ (Cert.ReferenceIdeal.ReadP.val_main_v49_apply _ _ _ _ _ i).symm
  show ∑ k : Fin 64, Region1.lhsArr (V5 m ρ) c (Region1.rowOf i k) * Region1.rhsArr (V5 m ρ) c (Region1.colOf i k) = _
  rw [show Region1.lhsArr (V5 m ρ) c = val_main_v48 (F := Ideal) (m ((c : Thread nD τ).loc main_arg0)) (m ((c : Thread nD τ).loc main_arg1)) (m ((c : Thread nD τ).loc main_arg2)) (m ((c : Thread nD τ).loc main_arg5)) from W5_v48 m ρ c,
    show Region1.rhsArr (V5 m ρ) c = m ((c : Thread nD τ).loc main_arg3) from W5_main_arg3 m ρ c]
  rfl
theorem W6_main_v3 : W6 m ρ c (Proc.devRef .tc main_v3) = W5 m ρ c (Proc.devRef .tc main_v3) := W6_of_ne m ρ c main_v3 (by decide)
theorem W6_main_v6 : W6 m ρ c (Proc.devRef .tc main_v6) = W5 m ρ c (Proc.devRef .tc main_v6) := W6_of_ne m ρ c main_v6 (by decide)
theorem W6_main_v31 : W6 m ρ c (Proc.devRef .tc main_v31) = W5 m ρ c (Proc.devRef .tc main_v31) := W6_of_ne m ρ c main_v31 (by decide)
theorem W6_main_arg4 : W6 m ρ c (Proc.devRef .tc main_arg4) = W5 m ρ c (Proc.devRef .tc main_arg4) := W6_of_ne m ρ c main_arg4 (by decide)

/-! ### The return -/

/-- The idealized kernel program's result array is the reference's result stage of the argument arrays. -/
theorem W7_v65 : W7 m ρ c (Proc.devRef .tc main_v65)
    = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  tail_v65 (W6 m ρ c) _ _ _ _ _ _ (W6_v49 m ρ c) ((W6_main_v3 m ρ c).trans (W5_v3 m ρ c)) ((W6_main_v6 m ρ c).trans (W5_v6 m ρ c))
    ((W6_main_v31 m ρ c).trans (W5_v31 m ρ c)) ((W6_main_arg4 m ρ c).trans (W5_main_arg4 m ρ c))

end Boundaries

end Cert.KernelIdeal.Fold

end
-- ==== Proof.lean ====
/-
  A two-layer graph convolution: `out = A · ((A · (x · W1) + b1) · W2) + b2`, where `A` gathers rows along the source
  indices of the edge list (self-loops appended), scales each by `dinv[src] · dinv[dst]` of the in-degrees, and
  scatter-adds onto the destination indices.

  The kernel program computes the two dense products `x · W1` and `h · W2` on the TensorCore, 20 row blocks of 5000 rows
  each, narrowing both operands to bf16 and accumulating from zero; everything else it does on the host with the very
  operations of the reference, which computes the two products on the host too. Over the extended reals the narrowing
  is the identity and a product accumulated from zero is the plain sum `∑ k, a[r, k] · w[k, q]`, which is also what
  the host's product is, so the two programs compute one function of their arguments. No law that needs finiteness is
  used: the precondition is never opened.

  The pieces: the kernel bodies' stored values at an index (`BlockValue`), each region's output array as the product
  of the arrays it is entered with (`Region0`, `Region1`), the run read boundary by boundary against the reference's
  stages (`Fold`), the kernel program's run with its result named (`KernelRun`), the reference's run and its stages
  (`RefRunGen`, `RefReadGen`). The idealization rewrote no operation, so `preserves` has nothing to state.
-/
import proofs.«142271_j66297115181468_1_alg».proof.Defs
import proofs.«142271_j66297115181468_1_alg».proof.Proof.Gen.Kernel
import proofs.«142271_j66297115181468_1_alg».proof.Proof.Gen.Kernel.Skeleton
import proofs.«142271_j66297115181468_1_alg».proof.Proof.Gen.Kernel.Launch
import proofs.«142271_j66297115181468_1_alg».proof.Proof.Gen.Kernel.Points
import proofs.«142271_j66297115181468_1_alg».proof.Proof.Gen.Kernel.Frame
import proofs.«142271_j66297115181468_1_alg».proof.Proof.Gen.KernelIdeal
import proofs.«142271_j66297115181468_1_alg».proof.Proof.Gen.KernelIdeal.Skeleton
import proofs.«142271_j66297115181468_1_alg».proof.Proof.Gen.KernelIdeal.Launch
import proofs.«142271_j66297115181468_1_alg».proof.Proof.Gen.KernelIdeal.Points
import proofs.«142271_j66297115181468_1_alg».proof.Proof.Gen.KernelIdeal.Frame
import proofs.«142271_j66297115181468_1_alg».proof.Proof.Gen.ReferenceIdeal
import proofs.«142271_j66297115181468_1_alg».proof.Proof.Gen.Pre_finite_inputs
import proofs.«142271_j66297115181468_1_alg».proof.Proof.KernelRun
import proofs.«142271_j66297115181468_1_alg».proof.Proof.Fold
import proofs.«142271_j66297115181468_1_alg».proof.Proof.RefRunGen
import proofs.«142271_j66297115181468_1_alg».proof.Proof.RefReadGen
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end with the result array at the reference's result stage of the (agreeing) argument arrays: the
    kernel program's by the fold through its two regions, the reference's by its run. -/
theorem algebraic : Cert.algebraic_KernelIdeal_ReferenceIdeal := by
  intro m ρ m' ρ' _ hagree
  refine ⟨fun c => Cert.KernelIdeal.Gen.W7 m ρ c (Proc.devRef .tc Cert.KernelIdeal.main_v65), Cert.KernelIdeal.GenRun.run (F := Ideal) m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v65_eq, (hagree c).1, (hagree c).2.1, (hagree c).2.2.1, (hagree c).2.2.2.1,
    (hagree c).2.2.2.2.1, (hagree c).2.2.2.2.2]
  exact (Cert.KernelIdeal.Fold.W7_v65 m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
